-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8x1024x2816 : S_.BroadcastsInDim S8x1024x2816 (![] : Fin 0 → Fin S8x1024x2816.rank)
  reducesTo_S8x1024x2816_S_d0_1_2 : S8x1024x2816.ReducesTo [0, 1, 2] S_
  bcast_S_S8x2816x1024 : S_.BroadcastsInDim S8x2816x1024 (![] : Fin 0 → Fin S8x2816x1024.rank)
  reducesTo_S8x2816x1024_S_d0_1_2 : S8x2816x1024.ReducesTo [0, 1, 2] S_

variable [Facts]

def fn_part1 {F : FTy → Type} [FloatOps F] (main_arg5 : FVec F S8x2816x1024 .f32) (main_v13 : IVec S_ 1) (main_v16 : IVec S8x1024x2816 1) : IVec S_ 1 :=
  let main_c_5 : IVec S_ 1 := constantI S_ 1 1#1
  let main_v17 : IVec S_ 1 := (fun x v => Host.reduce IntOp.andi x v reducesTo_S8x1024x2816_S_d0_1_2 h_S_) main_v16 main_c_5
  let main_v18 : IVec S_ 1 := andi main_v13 main_v17
  let main_v19 : FVec F S8x2816x1024 .f32 := Host.absf main_arg5
  let main_cst_6 : FVec F S_ .f32 := constant S_ .f32 0x7F800000#32
  let main_v20 : FVec F S8x2816x1024 .f32 := broadcastInDim S8x2816x1024 ![] bcast_S_S8x2816x1024 main_cst_6
  let main_v21 : IVec S8x2816x1024 1 := cmpf .olt main_v19 main_v20
  let main_c_7 : IVec S_ 1 := constantI S_ 1 1#1
  let main_v22 : IVec S_ 1 := (fun x v => Host.reduce IntOp.andi x v reducesTo_S8x2816x1024_S_d0_1_2 h_S_) main_v21 main_c_7
  let main_v23 : IVec S_ 1 := andi main_v18 main_v22
  main_v23

def fn {F : FTy → Type} [FloatOps F] (main_arg0 : FVec F S8192x1024 .f32) (main_arg1 : IVec S8192 32) (main_arg2 : FVec F S8192 .f32) (main_arg3 : FVec F S8x1024x2816 .f32) (main_arg4 : FVec F S8x1024x2816 .f32) (main_arg5 : FVec F S8x2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8x1024x2816 .f32 := Host.absf main_arg3
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  let main_v14 : FVec F S8x1024x2816 .f32 := Host.absf main_arg4
  let main_cst_4 : FVec F S_ .f32 := constant S_ .f32 0x7F800000#32
  let main_v15 : FVec F S8x1024x2816 .f32 := broadcastInDim S8x1024x2816 ![] bcast_S_S8x1024x2816 main_cst_4
  let main_v16 : IVec S8x1024x2816 1 := cmpf .olt main_v14 main_v15
  fn_part1 (F := F) main_arg5 main_v13 main_v16
-- ==== Kernel.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S10241x1024 : Shape := ⟨2, ![10241, 1024]⟩
abbrev S10240x1024 : Shape := ⟨2, ![10240, 1024]⟩
abbrev S8x1280x1024 : Shape := ⟨3, ![8, 1280, 1024]⟩
abbrev S1x256x1024 : Shape := ⟨3, ![1, 256, 1024]⟩
abbrev S1x1024x2816 : Shape := ⟨3, ![1, 1024, 2816]⟩
abbrev S1x2816x1024 : Shape := ⟨3, ![1, 2816, 1024]⟩
abbrev S256x1024 : Shape := ⟨2, ![256, 1024]⟩
abbrev S1024x2816 : Shape := ⟨2, ![1024, 2816]⟩
abbrev S2816x1024 : Shape := ⟨2, ![2816, 1024]⟩
abbrev S256x2816 : Shape := ⟨2, ![256, 2816]⟩
abbrev S1x1024 : Shape := ⟨2, ![1, 1024]⟩

abbrev nBuf : Space → Nat
  | .hbm => 69
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x8, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S10241x1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S10241x1024, .f32⟩
  | .hbm, ⟨43, _⟩ => ⟨S10240x1024, .f32⟩
  | .hbm, ⟨44, _⟩ => ⟨S8x1280x1024, .f32⟩
  | .hbm, ⟨45, _⟩ => ⟨S8x1280x1024, .bf16⟩
  | .hbm, ⟨46, _⟩ => ⟨S8x1024x2816, .bf16⟩
  | .hbm, ⟨47, _⟩ => ⟨S8x1024x2816, .bf16⟩
  | .hbm, ⟨48, _⟩ => ⟨S8x2816x1024, .bf16⟩
  | .hbm, ⟨49, _⟩ => ⟨S8x1280x1024, .f32⟩
  | .hbm, ⟨50, _⟩ => ⟨S10240x1024, .f32⟩
  | .hbm, ⟨51, _⟩ => ⟨S_, .f32⟩
  | .hbm, ⟨52, _⟩ => ⟨S1x1024, .f32⟩
  | .hbm, ⟨53, _⟩ => ⟨S10241x1024, .f32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S8192x1, .i32⟩
  | .hbm, ⟨62, _⟩ => ⟨S8192x1024, .f32⟩
  | .hbm, ⟨63, _⟩ => ⟨S8192x1, .i1⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .i1⟩
  | .hbm, ⟨68, _⟩ => ⟨S8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1x2816x1024, .bf16⟩
  | .local _ .vmem, ⟨5, _⟩ => ⟨S1x256x1024, .f32⟩
  | .local _ .vmem, ⟨6, _⟩ => ⟨S1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call3_v0 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  reducesTo_S8192x8_S8192_d1 : S8192x8.ReducesTo [1] S8192
  bcast_S_S8192 : S_.BroadcastsInDim S8192 (![] : Fin 0 → Fin S8192.rank)
  bcast_S_S10241x1024 : S_.BroadcastsInDim S10241x1024 (![] : Fin 0 → Fin S10241x1024.rank)
  slices_S10241x1024_S10240x1024_0_0 : S10241x1024.Slices ![0, 0] S10240x1024
  shapeCasts_S10240x1024_S8x1280x1024 : S10240x1024.ShapeCasts S8x1280x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x2816_S1x1024x2816_0_0_0 : ∀ a, (![0, 0, 0] : Fin 3 → Nat) a + S1x1024x2816.size a ≤ S1x1024x2816.size a
  h_S1x1024x2816 : 0 < S1x1024x2816.numel
  shapeCasts_S1x1024x2816_S1024x2816 : S1x1024x2816.ShapeCasts S1024x2816
  inb_S1x2816x1024_S1x2816x1024_0_0_0 : ∀ a, (![0, 0, 0] : Fin 3 → Nat) a + S1x2816x1024.size a ≤ S1x2816x1024.size a
  h_S1x2816x1024 : 0 < S1x2816x1024.numel
  shapeCasts_S1x2816x1024_S2816x1024 : S1x2816x1024.ShapeCasts S2816x1024
  shapeCasts_S256x1024_S1x256x1024 : S256x1024.ShapeCasts S1x256x1024
  shapeCasts_S8x1280x1024_S10240x1024 : S8x1280x1024.ShapeCasts S10240x1024
  bcast_S_S1x1024 : S_.BroadcastsInDim S1x1024 (![] : Fin 0 → Fin S1x1024.rank)
  concatenates_S10240x1024_S1x1024_S10241x1024_d0 : Shape.Concatenates [S10240x1024, S1x1024] S10241x1024 0
  bcast_S8192x1_S8192x1024_0_1 : S8192x1.BroadcastsInDim S8192x1024 (![0, 1] : Fin 2 → Fin S8192x1024.rank)
  scatter_S10241x1024_S8192x1_S8192x1024_1_0_0_1_wf : ScatterDims.WF S10241x1024 S8192x1 S8192x1024 [1] [0] [0] 1
  dot_S256x1024_S1024x2816_S256x2816_1_0_0_1_n_n_wf : DotDims.WF S256x1024 S1024x2816 S256x2816 [1] [0] [0] [1] [] []
  dot_S256x2816_S2816x1024_S256x1024_1_0_0_1_n_n_wf : DotDims.WF S256x2816 S2816x1024 S256x1024 [1] [0] [0] [1] [] []
  gather_S10241x1024_S8192x1_S8192x1024_1_0_n_n_0_1_11024_wf : GatherDims.WF S10241x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1280x1024.size a
  hwx0_0 : ∀ i : grid0.Coords, EltTy.bits .bf16 = 32 ∨ (Rect.block (s := S8x1280x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x2816.size a ≤ S8x1024x2816.size a
  hwx0_1 : ∀ i : grid0.Coords, EltTy.bits .bf16 = 32 ∨ (Rect.block (s := S8x1024x2816) S1x1024x2816.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x2816.size a ≤ S8x1024x2816.size a
  hwx0_2 : ∀ i : grid0.Coords, EltTy.bits .bf16 = 32 ∨ (Rect.block (s := S8x1024x2816) S1x1024x2816.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2816x1024.size a ≤ S8x2816x1024.size a
  hwx0_3 : ∀ i : grid0.Coords, EltTy.bits .bf16 = 32 ∨ (Rect.block (s := S8x2816x1024) S1x2816x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x1280x1024.size a
  hwx0_4 : ∀ i : grid0.Coords, EltTy.bits .f32 = 32 ∨ (Rect.block (s := S8x1280x1024) S1x256x1024.size (cc0_transform_4 i) (hinb0_4 i)).WholeWords (EltTy.packing .f32)

variable [Facts₀]

def scatter_S10241x1024_S8192x1_S8192x1024_1_0_0_1 : ScatterDims S10241x1024 S8192x1 S8192x1024 where
  updateWindowDims := [1]
  insertedWindowDims := [0]
  scatterDimsToOperandDims := [0]
  indexVectorDim := 1
  wf := scatter_S10241x1024_S8192x1_S8192x1024_1_0_0_1_wf
def dot_S256x1024_S1024x2816_S256x2816_1_0_0_1_n_n : DotDims S256x1024 S1024x2816 S256x2816 where
  lhsContracting := [1]
  rhsContracting := [0]
  lhsNonContracting := [0]
  rhsNonContracting := [1]
  lhsBatch := []
  rhsBatch := []
  wf := dot_S256x1024_S1024x2816_S256x2816_1_0_0_1_n_n_wf
def dot_S256x2816_S2816x1024_S256x1024_1_0_0_1_n_n : DotDims S256x2816 S2816x1024 S256x1024 where
  lhsContracting := [1]
  rhsContracting := [0]
  lhsNonContracting := [0]
  rhsNonContracting := [1]
  lhsBatch := []
  rhsBatch := []
  wf := dot_S256x2816_S2816x1024_S256x1024_1_0_0_1_n_n_wf
def gather_S10241x1024_S8192x1_S8192x1024_1_0_n_n_0_1_11024 : GatherDims S10241x1024 S8192x1 S8192x1024 where
  offsetDims := [1]
  collapsedSliceDims := [0]
  operandBatchingDims := []
  startIndicesBatchingDims := []
  startIndexMap := [0]
  indexVectorDim := 1
  sliceSizes := ![1, 1024]
  wf := gather_S10241x1024_S8192x1_S8192x1024_1_0_n_n_0_1_11024_wf

abbrev win0_0 : Pipeline.Window sig grid0 :=
  Pipeline.Window.ofSpec (Memref.whole main_v22) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1x1024x2816.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024x2816.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2816x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S8x1024x2816 : Shape := ⟨3, ![8, 1024, 2816]⟩
abbrev S8x2816x1024 : Shape := ⟨3, ![8, 2816, 1024]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S10241x1024 : Shape := ⟨2, ![10241, 1024]⟩
abbrev S10240x1024 : Shape := ⟨2, ![10240, 1024]⟩
abbrev S8x1280x1024 : Shape := ⟨3, ![8, 1280, 1024]⟩
abbrev S8x1280x2816 : Shape := ⟨3, ![8, 1280, 2816]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x8, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .f32⟩
  | .hbm, ⟨33, _⟩ => ⟨S10241x1024, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S10241x1024, .f32⟩
  | .hbm, ⟨43, _⟩ => ⟨S10240x1024, .f32⟩
  | .hbm, ⟨44, _⟩ => ⟨S8x1280x1024, .f32⟩
  | .hbm, ⟨45, _⟩ => ⟨S8x1280x2816, .f32⟩
  | .hbm, ⟨46, _⟩ => ⟨S8x1280x2816, .f32⟩
  | .hbm, ⟨47, _⟩ => ⟨S8x1280x2816, .f32⟩
  | .hbm, ⟨48, _⟩ => ⟨S8x1280x2816, .f32⟩
  | .hbm, ⟨49, _⟩ => ⟨S_, .f32⟩
  | .hbm, ⟨50, _⟩ => ⟨S8x1280x2816, .f32⟩
  | .hbm, ⟨51, _⟩ => ⟨S8x1280x2816, .f32⟩
  | .hbm, ⟨52, _⟩ => ⟨S_, .f32⟩
  | .hbm, ⟨53, _⟩ => ⟨S8x1280x2816, .f32⟩
  | .hbm, ⟨54, _⟩ => ⟨S8x1280x2816, .f32⟩
  | .hbm, ⟨55, _⟩ => ⟨S8x1280x2816, .f32⟩
  | .hbm, ⟨56, _⟩ => ⟨S8x1280x2816, .f32⟩
  | .hbm, ⟨57, _⟩ => ⟨S8x1280x1024, .f32⟩
  | .hbm, ⟨58, _⟩ => ⟨S10240x1024, .f32⟩
  | .hbm, ⟨59, _⟩ => ⟨S_, .f32⟩
  | .hbm, ⟨60, _⟩ => ⟨S1x1024, .f32⟩
  | .hbm, ⟨61, _⟩ => ⟨S10241x1024, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1024, .f32⟩
  | .hbm, ⟨71, _⟩ => ⟨S8192x1, .i1⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1024, .i1⟩
  | .hbm, ⟨76, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_call3_v1 : Ref sig .tc := ⟨.hbm, 48, rfl⟩
abbrev main_call3_cst : Ref sig .tc := ⟨.hbm, 49, rfl⟩
abbrev main_call3_v2 : Ref sig .tc := ⟨.hbm, 50, rfl⟩
abbrev main_call3_v3 : Ref sig .tc := ⟨.hbm, 51, rfl⟩
abbrev main_call3_cst_0 : Ref sig .tc := ⟨.hbm, 52, rfl⟩
abbrev main_call3_v4 : Ref sig .tc := ⟨.hbm, 53, rfl⟩
abbrev main_call3_v5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_v30 : Ref sig .tc := ⟨.hbm, 63, rfl⟩
abbrev main_v31 : Ref sig .tc := ⟨.hbm, 64, rfl⟩
abbrev main_c_8 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call4_v0 : Ref sig .tc := ⟨.hbm, 75, rfl⟩
abbrev main_v41 : Ref sig .tc := ⟨.hbm, 76, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  reducesTo_S8192x8_S8192_d1 : S8192x8.ReducesTo [1] S8192
  bcast_S_S8192 : S_.BroadcastsInDim S8192 (![] : Fin 0 → Fin S8192.rank)
  bcast_S_S10241x1024 : S_.BroadcastsInDim S10241x1024 (![] : Fin 0 → Fin S10241x1024.rank)
  slices_S10241x1024_S10240x1024_0_0 : S10241x1024.Slices ![0, 0] S10240x1024
  shapeCasts_S10240x1024_S8x1280x1024 : S10240x1024.ShapeCasts S8x1280x1024
  bcast_S_S8x1280x2816 : S_.BroadcastsInDim S8x1280x2816 (![] : Fin 0 → Fin S8x1280x2816.rank)
  shapeCasts_S8x1280x1024_S10240x1024 : S8x1280x1024.ShapeCasts S10240x1024
  bcast_S_S1x1024 : S_.BroadcastsInDim S1x1024 (![] : Fin 0 → Fin S1x1024.rank)
  concatenates_S10240x1024_S1x1024_S10241x1024_d0 : Shape.Concatenates [S10240x1024, S1x1024] S10241x1024 0
  bcast_S8192x1_S8192x1024_0_1 : S8192x1.BroadcastsInDim S8192x1024 (![0, 1] : Fin 2 → Fin S8192x1024.rank)
  scatter_S10241x1024_S8192x1_S8192x1024_1_0_0_1_wf : ScatterDims.WF S10241x1024 S8192x1 S8192x1024 [1] [0] [0] 1
  dot_S8x1280x1024_S8x1024x2816_S8x1280x2816_2_1_1_2_0_0_wf : DotDims.WF S8x1280x1024 S8x1024x2816 S8x1280x2816 [2] [1] [1] [2] [0] [0]
  dot_S8x1280x2816_S8x2816x1024_S8x1280x1024_2_1_1_2_0_0_wf : DotDims.WF S8x1280x2816 S8x2816x1024 S8x1280x1024 [2] [1] [1] [2] [0] [0]
  gather_S10241x1024_S8192x1_S8192x1024_1_0_n_n_0_1_11024_wf : GatherDims.WF S10241x1024 S8192x1 S8192x1024 [1] [0] [] [0] [] 1 ![1, 1024]

variable [Facts₀]

def scatter_S10241x1024_S8192x1_S8192x1024_1_0_0_1 : ScatterDims S10241x1024 S8192x1 S8192x1024 where
  updateWindowDims := [1]
  insertedWindowDims := [0]
  scatterDimsToOperandDims := [0]
  indexVectorDim := 1
  wf := scatter_S10241x1024_S8192x1_S8192x1024_1_0_0_1_wf
def dot_S8x1280x1024_S8x1024x2816_S8x1280x2816_2_1_1_2_0_0 : DotDims S8x1280x1024 S8x1024x2816 S8x1280x2816 where
  lhsContracting := [2]
  rhsContracting := [1]
  lhsNonContracting := [1]
  rhsNonContracting := [2]
  lhsBatch := [0]
  rhsBatch := [0]
  wf := dot_S8x1280x1024_S8x1024x2816_S8x1280x2816_2_1_1_2_0_0_wf
def dot_S8x1280x2816_S8x2816x1024_S8x1280x1024_2_1_1_2_0_0 : DotDims S8x1280x2816 S8x2816x1024 S8x1280x1024 where
  lhsContracting := [2]
  rhsContracting := [1]
  lhsNonContracting := [1]
  rhsNonContracting := [2]
  lhsBatch := [0]
  rhsBatch := [0]
  wf := dot_S8x1280x2816_S8x2816x1024_S8x1280x1024_2_1_1_2_0_0_wf
def gather_S10241x1024_S8192x1_S8192x1024_1_0_n_n_0_1_11024 : GatherDims S10241x1024 S8192x1 S8192x1024 where
  offsetDims := [1]
  collapsedSliceDims := [0]
  operandBatchingDims := []
  startIndicesBatchingDims := []
  startIndexMap := [0]
  indexVectorDim := 1
  sliceSizes := ![1, 1024]
  wf := gather_S10241x1024_S8192x1_S8192x1024_1_0_n_n_0_1_11024_wf

class Facts : Prop extends Facts₀ where

variable [Facts]
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KernelBlock.lean ====
/-
  What one grid point of the feed-forward kernel stores, entry by entry, at the ideal instance.

  A point holds a `[1, 256, 1024]` block `x0` of the token buffer and the point's expert's three weight blocks `x1`, `x2`
  (`[1, 1024, 2816]`) and `x3` (`[1, 2816, 1024]`). With the leading unit axes dropped the body forms the two projections
  `x0 · x1` and `x0 · x2` (each a product into a zero accumulator, so a plain sum over the 1024 features), multiplies the
  first through `g ↦ g · σ(g)` with the second, changes the float format (the identity on extended reals) and multiplies by
  `x3`. So the stored entry `(u, p, j)` is `Σ_h (g · σ(g) · u) · x3[0, h, j]` with `g`, `u` the two projection entries at `(p, h)`.
-/
import proofs.«144199_j63694364999794_1_alg».proof.Proof.Gen.KernelIdeal.Skeleton
import proofs.«144199_j63694364999794_1_alg».proof.Proof.LibRowOps
import Idealize.ShloMosaic.Lib.ValueLayout

noncomputable section

namespace Cert.KernelIdeal.Block

open Cert.KernelIdeal Cert.KernelIdeal.Gen Idealize.ShloMosaic Idealize.ShloMosaic.ValueIdx

/-- One projection entry inside a point: row `p` of the token block against column `h` of a weight block. -/
def bproj (x0 : Vec Ideal S1x256x1024 .bf16) (w : Vec Ideal S1x1024x2816 .bf16) (p : Fin 256) (h : Fin 2816) : EReal :=
  ∑ k : Fin 1024, x0 (ix3 (0 : Fin 1) p k) * w (ix3 (0 : Fin 1) k h)

/-- The body's first two products, read at `(p, h)`: the block projection entry. -/
theorem proj_apply (x0 : Vec Ideal S1x256x1024 .bf16) (w : Vec Ideal S1x1024x2816 .bf16) (p : Fin 256) (h : Fin 2816) :
    matmul (F := Ideal) dot_S256x1024_S1024x2816_S256x2816_1_0_0_1_n_n none
        (shapeCast S256x1024 x0 shapeCasts_S1x256x1024_S256x1024 : FVec Ideal S256x1024 .bf16)
        (shapeCast S1024x2816 w shapeCasts_S1x1024x2816_S1024x2816 : FVec Ideal S1024x2816 .bf16)
        (constant S256x2816 .f32 0x00000000#32) (ix2 p h)
      = bproj x0 w p h := by
  refine (Cert.RowOps.matmul_apply dot_S256x1024_S1024x2816_S256x2816_1_0_0_1_n_n_wf none _ _ p h).trans ?_
  refine Finset.sum_congr rfl fun k _ => ?_
  exact congrArg₂ (· * ·) (shapeCast_1ab_ab_apply x0 shapeCasts_S1x256x1024_S256x1024 p k)
    (shapeCast_1ab_ab_apply w shapeCasts_S1x1024x2816_S1024x2816 k h)

/-- The gated product and the format change, read at an index: `g · σ(g) · u` of the two operands' entries. -/
theorem gated_apply (g u : FVec Ideal S256x2816 .f32) (i : S256x2816.Idx) :
    (truncf .bf16 (mulf (mulf g (logistic g)) u) bitsLt_bf16_f32 : FVec Ideal S256x2816 .bf16) i
      = (g i * Ideal.logistic (g i)) * u i := rfl

/-- The stored entry `(u, p, j)` of a point. -/
theorem pay_apply (x0 : Vec Ideal S1x256x1024 .bf16) (x1 x2 : Vec Ideal S1x1024x2816 .bf16) (x3 : Vec Ideal S1x2816x1024 .bf16)
    (u : Fin 1) (p : Fin 256) (j : Fin 1024) :
    k0_pay1 x0 x1 x2 x3 (ix3 u p j)
      = ∑ h : Fin 2816, ((bproj x0 x1 p h * Ideal.logistic (bproj x0 x1 p h)) * bproj x0 x2 p h) * x3 (ix3 (0 : Fin 1) h j) := by
  unfold k0_pay1
  refine (shapeCast_ab_1ab_apply _ shapeCasts_S256x1024_S1x256x1024 u p j).trans ?_
  refine (Cert.RowOps.matmul_apply dot_S256x2816_S2816x1024_S256x1024_1_0_0_1_n_n_wf none _ _ p j).trans ?_
  refine Finset.sum_congr rfl fun h _ => ?_
  refine congrArg₂ (· * ·) ?_ (shapeCast_1ab_ab_apply x3 shapeCasts_S1x2816x1024_S2816x1024 h j)
  refine (gated_apply _ _ (ix2 p h)).trans ?_
  rw [proj_apply x0 x1 p h, proj_apply x0 x2 p h]

end Cert.KernelIdeal.Block

end
-- ==== Proof.Ffn.lean ====
/-
  The expert feed-forward block as ONE function of its four arrays, entry by entry, on the extended reals.

  `xe` is the per-expert token buffer `[8, 1280, 1024]` (expert, slot, feature), `wg` and `wu` the gate and up
  weights `[8, 1024, 2816]`, `wd` the down weights `[8, 2816, 1024]`. For expert `e`, slot `r` and output feature `j`

      out[e, r, j] = Σ_h ( g · σ(g) · u ) · wd[e, h, j],
      g = Σ_k xe[e, r, k] · wg[e, k, h],      u = Σ_k xe[e, r, k] · wu[e, k, h],

  with `σ(g) = 1 / (1 + e^(-g))` the logistic function. Nothing here depends on how the sums are tiled or grouped.
-/
import Idealize.ShloMosaic.PureOps.Ideal
import Idealize.ShloMosaic.Lib.ValueIdx

noncomputable section

namespace Cert.Ffn

open Idealize.ShloMosaic Idealize.ShloMosaic.ValueIdx

/-- One entry of a projection: slot `r` of expert `e`'s buffer against column `h` of that expert's weight. -/
def proj (xe : (⟨3, ![8, 1280, 1024]⟩ : Shape).Idx → EReal) (w : (⟨3, ![8, 1024, 2816]⟩ : Shape).Idx → EReal)
    (e : Fin 8) (r : Fin 1280) (h : Fin 2816) : EReal :=
  ∑ k : Fin 1024, xe (ix3 e r k) * w (ix3 e k h)

/-- One hidden entry: the gate projection through `g ↦ g · σ(g)`, times the up projection. -/
def hidden (xe : (⟨3, ![8, 1280, 1024]⟩ : Shape).Idx → EReal) (wg wu : (⟨3, ![8, 1024, 2816]⟩ : Shape).Idx → EReal)
    (e : Fin 8) (r : Fin 1280) (h : Fin 2816) : EReal :=
  (proj xe wg e r h * Ideal.logistic (proj xe wg e r h)) * proj xe wu e r h

/-- One output entry: the hidden row against column `j` of the expert's down weight. -/
def out (xe : (⟨3, ![8, 1280, 1024]⟩ : Shape).Idx → EReal) (wg wu : (⟨3, ![8, 1024, 2816]⟩ : Shape).Idx → EReal)
    (wd : (⟨3, ![8, 2816, 1024]⟩ : Shape).Idx → EReal) (e : Fin 8) (r : Fin 1280) (j : Fin 1024) : EReal :=
  ∑ h : Fin 2816, hidden xe wg wu e r h * wd (ix3 e h j)

/-- The whole output array. -/
def ffn (xe : (⟨3, ![8, 1280, 1024]⟩ : Shape).Idx → EReal) (wg wu : (⟨3, ![8, 1024, 2816]⟩ : Shape).Idx → EReal)
    (wd : (⟨3, ![8, 2816, 1024]⟩ : Shape).Idx → EReal) : (⟨3, ![8, 1280, 1024]⟩ : Shape).Idx → EReal :=
  fun i => out xe wg wu wd (i 0) (i 1) (i 2)

theorem ffn_apply (xe : (⟨3, ![8, 1280, 1024]⟩ : Shape).Idx → EReal) (wg wu : (⟨3, ![8, 1024, 2816]⟩ : Shape).Idx → EReal)
    (wd : (⟨3, ![8, 2816, 1024]⟩ : Shape).Idx → EReal) (e : Fin 8) (r : Fin 1280) (j : Fin 1024) :
    ffn xe wg wu wd (ix3 e r j) = out xe wg wu wd e r j := rfl

end Cert.Ffn

end
-- ==== Proof.KernelArrayCore.lean ====
/-
  One grid point of the feed-forward kernel stores a block of the feed-forward array, for ANY four arrays the windows read.

  The grid is 8 experts × 5 capacity tiles. At point `(e, c)` the token window's block is rows `256·c … 256·c + 255` of
  expert `e`'s buffer, the three weight windows' blocks are expert `e`'s whole matrices, and the output window's block is
  rows `256·c … 256·c + 255` of expert `e`'s output. A feed-forward entry depends only on its own slot's row and its
  expert's weights, so what the point stores, computed from its four blocks, is that block of `Cert.Ffn.ffn` of the four
  arrays; and the 40 output blocks tile the `[8, 1280, 1024]` array. The arrays are variables throughout.
-/
import proofs.«144199_j63694364999794_1_alg».proof.Proof.Gen.KernelIdeal.Points
import proofs.«144199_j63694364999794_1_alg».proof.Proof.KernelBlock
import proofs.«144199_j63694364999794_1_alg».proof.Proof.Ffn
import Idealize.ShloMosaic.Lib.Pipeline.Value

set_option maxRecDepth 16384

noncomputable section

open Idealize.ShloMosaic Idealize.ShloMosaic.TcCoe Idealize.SL.Sem

namespace Cert.KernelIdeal.Array

open Cert.KernelIdeal Cert.KernelIdeal.Gen Cert.KernelIdeal.Block Idealize.ShloMosaic.ValueIdx

/-- The index maps over the grid: the token window moves with the output window on the expert and tile axes, the weight
    windows follow the expert axis only, and every other block index is zero. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 :=
  (by decide +kernel : ∀ t : Fin grid0.N, _)

/-- Every (expert, tile) pair is some point's output block. -/
theorem idx_onto : ∀ (q0 : Fin 8) (q1 : Fin 5), ∃ t : Fin cfg0.N, win0_4.index t = ![q0.val, q1.val, 0] :=
  (by decide +kernel : ∀ (q0 : Fin 8) (q1 : Fin 5), ∃ t : Fin grid0.N, win0_4.index t = ![q0.val, q1.val, 0])

/-! ## A window's block of an array, read at an entry -/

theorem read0 (A : S8x1280x1024.Idx → EReal) (t : Fin cfg0.N) (x : S1x256x1024.Idx) (i : S8x1280x1024.Idx)
    (h0 : win0_0.index t (0 : Fin 3) * 1 + 1 * (x 0).val = (i 0).val) (h1 : win0_0.index t (1 : Fin 3) * 256 + 1 * (x 1).val = (i 1).val)
    (h2 : win0_0.index t (2 : Fin 3) * 1024 + 1 * (x 2).val = (i 2).val) :
    (((cfg0.win 0).blk t).view.read (Elt Ideal) A : Vec Ideal S1x256x1024 .bf16) x = A i := by
  rw [View.read_apply]
  refine congrArg A (funext fun a => Fin.ext ?_)
  match a with
  | ⟨0, _⟩ => exact h0
  | ⟨1, _⟩ => exact h1
  | ⟨2, _⟩ => exact h2

theorem read1 (A : S8x1024x2816.Idx → EReal) (t : Fin cfg0.N) (x : S1x1024x2816.Idx) (i : S8x1024x2816.Idx)
    (h0 : win0_1.index t (0 : Fin 3) * 1 + 1 * (x 0).val = (i 0).val) (h1 : win0_1.index t (1 : Fin 3) * 1024 + 1 * (x 1).val = (i 1).val)
    (h2 : win0_1.index t (2 : Fin 3) * 2816 + 1 * (x 2).val = (i 2).val) :
    (((cfg0.win 1).blk t).view.read (Elt Ideal) A : Vec Ideal S1x1024x2816 .bf16) x = A i := by
  rw [View.read_apply]
  refine congrArg A (funext fun a => Fin.ext ?_)
  match a with
  | ⟨0, _⟩ => exact h0
  | ⟨1, _⟩ => exact h1
  | ⟨2, _⟩ => exact h2

theorem read2 (A : S8x1024x2816.Idx → EReal) (t : Fin cfg0.N) (x : S1x1024x2816.Idx) (i : S8x1024x2816.Idx)
    (h0 : win0_2.index t (0 : Fin 3) * 1 + 1 * (x 0).val = (i 0).val) (h1 : win0_2.index t (1 : Fin 3) * 1024 + 1 * (x 1).val = (i 1).val)
    (h2 : win0_2.index t (2 : Fin 3) * 2816 + 1 * (x 2).val = (i 2).val) :
    (((cfg0.win 2).blk t).view.read (Elt Ideal) A : Vec Ideal S1x1024x2816 .bf16) x = A i := by
  rw [View.read_apply]
  refine congrArg A (funext fun a => Fin.ext ?_)
  match a with
  | ⟨0, _⟩ => exact h0
  | ⟨1, _⟩ => exact h1
  | ⟨2, _⟩ => exact h2

theorem read3 (A : S8x2816x1024.Idx → EReal) (t : Fin cfg0.N) (x : S1x2816x1024.Idx) (i : S8x2816x1024.Idx)
    (h0 : win0_3.index t (0 : Fin 3) * 1 + 1 * (x 0).val = (i 0).val) (h1 : win0_3.index t (1 : Fin 3) * 2816 + 1 * (x 1).val = (i 1).val)
    (h2 : win0_3.index t (2 : Fin 3) * 1024 + 1 * (x 2).val = (i 2).val) :
    (((cfg0.win 3).blk t).view.read (Elt Ideal) A : Vec Ideal S1x2816x1024 .bf16) x = A i := by
  rw [View.read_apply]
  refine congrArg A (funext fun a => Fin.ext ?_)
  match a with
  | ⟨0, _⟩ => exact h0
  | ⟨1, _⟩ => exact h1
  | ⟨2, _⟩ => exact h2

/-! ## One point's store is a block of the feed-forward array -/

/-- Blocks that are rows of the arrays (the token block rows of slot `r` of expert `e`, the weight blocks expert `e`'s
    matrices) give, at the stored entry `(u, p, j)`, the feed-forward entry `(e, r, j')`. -/
theorem point_eq (xe : S8x1280x1024.Idx → EReal) (wg wu : S8x1024x2816.Idx → EReal) (wd : S8x2816x1024.Idx → EReal)
    (x0 : Vec Ideal S1x256x1024 .bf16) (x1 x2 : Vec Ideal S1x1024x2816 .bf16) (x3 : Vec Ideal S1x2816x1024 .bf16)
    (e : Fin 8) (r : Fin 1280) (j' : Fin 1024) (u : Fin 1) (p : Fin 256) (j : Fin 1024)
    (h0 : ∀ k : Fin 1024, x0 (ix3 (0 : Fin 1) p k) = xe (ix3 e r k))
    (h1 : ∀ (k : Fin 1024) (h : Fin 2816), x1 (ix3 (0 : Fin 1) k h) = wg (ix3 e k h))
    (h2 : ∀ (k : Fin 1024) (h : Fin 2816), x2 (ix3 (0 : Fin 1) k h) = wu (ix3 e k h))
    (h3 : ∀ h : Fin 2816, x3 (ix3 (0 : Fin 1) h j) = wd (ix3 e h j')) :
    k0_pay1 x0 x1 x2 x3 (ix3 u p j) = Cert.Ffn.out xe wg wu wd e r j' := by
  rw [pay_apply]
  unfold Cert.Ffn.out Cert.Ffn.hidden Cert.Ffn.proj bproj
  simp only [h0, h1, h2, h3]

/-- The four blocks of point `t` of any four arrays give, through the body's arithmetic, block `t` of the feed-forward
    array of those arrays. -/
theorem stored_eq (A0 : S8x1280x1024.Idx → EReal) (A1 A2 : S8x1024x2816.Idx → EReal) (A3 : S8x2816x1024.Idx → EReal) (t : Fin cfg0.N) :
    k0_pay1 (((cfg0.win 0).blk t).view.read (Elt Ideal) A0) (((cfg0.win 1).blk t).view.read (Elt Ideal) A1)
        (((cfg0.win 2).blk t).view.read (Elt Ideal) A2) (((cfg0.win 3).blk t).view.read (Elt Ideal) A3)
      = ((cfg0.win 4).blk t).view.read (Elt Ideal) (Cert.Ffn.ffn A0 A1 A2 A3) := by
  obtain ⟨a0, a1, a2, b0, b1, b2, c0, c1, c2, d0, d1, d2, o2⟩ := idx_facts t
  funext y
  have hy0 : (y 0).val < 1 := (y 0).isLt
  have hy1 : (y 1).val < 256 := (y 1).isLt
  have hy2 : (y 2).val < 1024 := (y 2).isLt
  rw [View.read_apply]
  show _ = Cert.Ffn.out A0 A1 A2 A3 ((((cfg0.win 4).blk t).view.emb y) 0) ((((cfg0.win 4).blk t).view.emb y) 1) ((((cfg0.win 4).blk t).view.emb y) 2)
  have e0 : ((((cfg0.win 4).blk t).view.emb y) 0).val = win0_4.index t (0 : Fin 3) * 1 + 1 * (y 0).val := rfl
  have e1 : ((((cfg0.win 4).blk t).view.emb y) 1).val = win0_4.index t (1 : Fin 3) * 256 + 1 * (y 1).val := rfl
  have e2 : ((((cfg0.win 4).blk t).view.emb y) 2).val = win0_4.index t (2 : Fin 3) * 1024 + 1 * (y 2).val := rfl
  refine (congrArg (k0_pay1 (((cfg0.win 0).blk t).view.read (Elt Ideal) A0) (((cfg0.win 1).blk t).view.read (Elt Ideal) A1)
        (((cfg0.win 2).blk t).view.read (Elt Ideal) A2) (((cfg0.win 3).blk t).view.read (Elt Ideal) A3)) (eq_ix3 y)).trans ?_
  refine point_eq A0 A1 A2 A3 (((cfg0.win 0).blk t).view.read (Elt Ideal) A0) (((cfg0.win 1).blk t).view.read (Elt Ideal) A1)
    (((cfg0.win 2).blk t).view.read (Elt Ideal) A2) (((cfg0.win 3).blk t).view.read (Elt Ideal) A3)
    ((((cfg0.win 4).blk t).view.emb y) 0) ((((cfg0.win 4).blk t).view.emb y) 1) ((((cfg0.win 4).blk t).view.emb y) 2) (y 0) (y 1) (y 2) ?_ ?_ ?_ ?_
  · intro k
    refine read0 A0 t _ _ ?_ ?_ ?_
    · show win0_0.index t (0 : Fin 3) * 1 + 1 * 0 = _; rw [e0]; omega
    · show win0_0.index t (1 : Fin 3) * 256 + 1 * (y 1).val = _; rw [e1]; omega
    · show win0_0.index t (2 : Fin 3) * 1024 + 1 * k.val = k.val; omega
  · intro k h
    refine read1 A1 t _ _ ?_ ?_ ?_
    · show win0_1.index t (0 : Fin 3) * 1 + 1 * 0 = _; rw [e0]; omega
    · show win0_1.index t (1 : Fin 3) * 1024 + 1 * k.val = k.val; omega
    · show win0_1.index t (2 : Fin 3) * 2816 + 1 * h.val = h.val; omega
  · intro k h
    refine read2 A2 t _ _ ?_ ?_ ?_
    · show win0_2.index t (0 : Fin 3) * 1 + 1 * 0 = _; rw [e0]; omega
    · show win0_2.index t (1 : Fin 3) * 1024 + 1 * k.val = k.val; omega
    · show win0_2.index t (2 : Fin 3) * 2816 + 1 * h.val = h.val; omega
  · intro h
    refine read3 A3 t _ _ ?_ ?_ ?_
    · show win0_3.index t (0 : Fin 3) * 1 + 1 * 0 = _; rw [e0]; omega
    · show win0_3.index t (1 : Fin 3) * 2816 + 1 * h.val = h.val; omega
    · show win0_3.index t (2 : Fin 3) * 1024 + 1 * (y 2).val = _; rw [e2]; omega

/-! ## The blocks tile the array -/

/-- An index of the array is in point `t`'s block iff each coordinate is in the block's range on its axis. -/
theorem mem_blk (t : Fin cfg0.N) (i : S8x1280x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v26).slice (win0_4.rect t)).set ↔ _
  rw [View.set_slice_whole, Rect.mem_set_unit]
  exact Iff.rfl

/-- Every entry of the array is in some point's block: slot `r` of expert `e` belongs to tile `r / 256`. -/
theorem cover (i : S8x1280x1024.Idx) : ∃ t : Fin cfg0.N, (cfg0.win 4).flush t = true ∧ i ∈ ((cfg0.win 4).blk t).view.set := by
  have hi0 : (i 0).val < 8 := (i 0).isLt
  have hi1 : (i 1).val < 1280 := (i 1).isLt
  have hi2 : (i 2).val < 1024 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

end Cert.KernelIdeal.Array

end
-- ==== Proof.KernelArray.lean ====
/-
  The feed-forward kernel's output array after the run, as one function of the four arrays the region finds.

  Every point stores block `t` of the feed-forward array of the four arrays the windows read, and the 40 blocks tile
  the `[8, 1280, 1024]` array (both shown for arbitrary arrays, before), so the output array ends holding
  `Cert.Ffn.ffn` of the token buffer and the three weights as the region finds them.
-/
import proofs.«144199_j63694364999794_1_alg».proof.Proof.Gen.KernelIdeal.Frame
import proofs.«144199_j63694364999794_1_alg».proof.Proof.KernelArrayCore

noncomputable section

open Idealize.ShloMosaic Idealize.ShloMosaic.TcCoe Idealize.SL.Sem
open Idealize.ShloMosaic.Pipeline (Dat)

namespace Cert.KernelIdeal.Array

open Cert.KernelIdeal Cert.KernelIdeal.Gen

variable (m : (ℓ : Loc nD τ sig) → Buf (Elt Ideal) ℓ)

theorem hz : (![0, 0, 0] : Fin 3 → Nat) = fun _ => 0 := funext fun a => by fin_cases a <;> rfl

/-- What the output array ends holding: the feed-forward block of the four arrays the windows read, as the region finds them. -/
def G (c : Dev nD) : S8x1280x1024.Idx → EReal :=
  Cert.Ffn.ffn (V m c (Pipeline.arrRef spec0 0)) (V m c (Pipeline.arrRef spec0 1)) (V m c (Pipeline.arrRef spec0 2)) (V m c (Pipeline.arrRef spec0 3))

/-- WHAT POINT `t` WRITES BACK is block `t` of that array. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S1x256x1024) hz, View.ld_unit_zero (S := S1x1024x2816) hz, View.ld_unit_zero (S := S1x2816x1024) hz]
  exact stored_eq (V m c (Pipeline.arrRef spec0 0)) (V m c (Pipeline.arrRef spec0 1)) (V m c (Pipeline.arrRef spec0 2)) (V m c (Pipeline.arrRef spec0 3)) t

/-- THE ARRAY after the run: the feed-forward block of the four arrays. -/
theorem final (c : Dev nD) : (dats m 0 c).arrAt 4 cfg0.N = G m c :=
  (dats m 0 c).arrAt_eq_of_cover 4 (G m c) (fun t _ => flushed_eq m c t) cover

end Cert.KernelIdeal.Array

end
-- ==== Proof.RefRun.lean ====
/-
  The reference program's run.

  The reference is a straight line of 71 host operations once its calls are written out at their sites, in three
  stretches. The first (39 operations) routes: the one-hot encoding of the expert ids, the running count down the tokens,
  each token's position in its expert's queue, the kept flags and the dispatch slots, and the scatter of the tokens into
  the per-expert buffer. The second (13) is the feed-forward block: the two projections, the gated activation, their
  product and the down projection. The third (19) is the way back: the gather of each token's row, the score, and the
  pass-through of the tokens that were not kept.
  Such a program terminates on every weakly fair execution, and each buffer ends at the fold of the operations over the
  launch contents.
-/
import proofs.«144199_j63694364999794_1_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The routing stretch, each call's body written at its site over that call's buffers. -/
abbrev opsA : List (HloOp τ sig (Elt F)) :=
  [ StableHlo.TRef.unary (.of main_arg1 : StableHlo.TRef sig ⟨S8192, .i32⟩) main_call0.v0 (broadcastInDim S8192x1 ![0] bcast_S8192_S8192x1_0),
    StableHlo.TRef.nullary main_call0.v1 (iotaInDim S1x8 32 1),
    StableHlo.TRef.unary main_call0.v0 main_call0.v2 (broadcastInDim S8192x8 ![0, 1] bcast_S8192x1_S8192x8_0_1),
    StableHlo.TRef.unary main_call0.v1 main_call0.v3 (broadcastInDim S8192x8 ![0, 1] bcast_S1x8_S8192x8_0_1),
    StableHlo.TRef.binary main_call0.v2 main_call0.v3 main_call0.v4 (cmpi .eq),
    StableHlo.TRef.unary main_call0.v4 main_call0.v5 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary (.of main_v0 : StableHlo.TRef sig ⟨S8192x8, .i32⟩) main_call1.call0.v0 main_call1.call0.v1 (fun x v => Host.reduceWindow IntOp.addi ![8192, 1] ![1, 1] ![8191, 0] ![0, 0] x v reduceWindows_S8192x8_S8192x8_w8192s1p8191_0_w1s1p0_0 h_S_),
    StableHlo.nullary main_c (constantI S_ 32 1#32),
    StableHlo.unary main_c main_v2 (broadcastInDim S8192x8 ![] bcast_S_S8192x8 : (⟨S_, .i32⟩ : BufTy).Contents (Elt F) → (⟨S8192x8, .i32⟩ : BufTy).Contents (Elt F)),
    StableHlo.binary main_v1 main_v2 main_v3 (subi : (⟨S8192x8, .i32⟩ : BufTy).Contents (Elt F) → (⟨S8192x8, .i32⟩ : BufTy).Contents (Elt F) → (⟨S8192x8, .i32⟩ : BufTy).Contents (Elt F)),
    StableHlo.binary main_v3 main_v0 main_v4 (muli : (⟨S8192x8, .i32⟩ : BufTy).Contents (Elt F) → (⟨S8192x8, .i32⟩ : BufTy).Contents (Elt F) → (⟨S8192x8, .i32⟩ : BufTy).Contents (Elt F)),
    StableHlo.nullary main_c_0 (constantI S_ 32 0#32),
    StableHlo.binary main_v4 main_c_0 main_v5 ((fun x v => Host.reduce IntOp.addi x v reducesTo_S8192x8_S8192_d1 h_S_) : (⟨S8192x8, .i32⟩ : BufTy).Contents (Elt F) → (⟨S_, .i32⟩ : BufTy).Contents (Elt F) → (⟨S8192, .i32⟩ : BufTy).Contents (Elt F)),
    StableHlo.nullary main_c_1 (constantI S_ 32 1280#32),
    StableHlo.unary main_c_1 main_v6 (broadcastInDim S8192 ![] bcast_S_S8192 : (⟨S_, .i32⟩ : BufTy).Contents (Elt F) → (⟨S8192, .i32⟩ : BufTy).Contents (Elt F)),
    StableHlo.binary main_v5 main_v6 main_v7 (cmpi .slt : (⟨S8192, .i32⟩ : BufTy).Contents (Elt F) → (⟨S8192, .i32⟩ : BufTy).Contents (Elt F) → (⟨S8192, .i1⟩ : BufTy).Contents (Elt F)),
    StableHlo.nullary main_c_2 (constantI S_ 32 1280#32),
    StableHlo.unary main_c_2 main_v8 (broadcastInDim S8192 ![] bcast_S_S8192 : (⟨S_, .i32⟩ : BufTy).Contents (Elt F) → (⟨S8192, .i32⟩ : BufTy).Contents (Elt F)),
    StableHlo.binary main_arg1 main_v8 main_v9 (muli : (⟨S8192, .i32⟩ : BufTy).Contents (Elt F) → (⟨S8192, .i32⟩ : BufTy).Contents (Elt F) → (⟨S8192, .i32⟩ : BufTy).Contents (Elt F)),
    StableHlo.binary main_v9 main_v5 main_v10 (addi : (⟨S8192, .i32⟩ : BufTy).Contents (Elt F) → (⟨S8192, .i32⟩ : BufTy).Contents (Elt F) → (⟨S8192, .i32⟩ : BufTy).Contents (Elt F)),
    StableHlo.nullary main_c_3 (constantI S_ 32 10240#32),
    StableHlo.TRef.unary (.of main_c_3 : StableHlo.TRef sig ⟨S_, .i32⟩) main_call2.v0 id,
    StableHlo.TRef.unary main_call2.v0 main_call2.v1 (broadcastInDim S8192 ![] bcast_S_S8192),
    StableHlo.TRef.ternary (.of main_v7 : StableHlo.TRef sig ⟨S8192, .i1⟩) (.of main_v10 : StableHlo.TRef sig ⟨S8192, .i32⟩) main_call2.v1 main_call2.v2 select,
    StableHlo.nullary main_cst (constant S_ .f32 0x00000000#32),
    StableHlo.unary main_cst main_v12 (broadcastInDim S10241x1024 ![] bcast_S_S10241x1024 : (⟨S_, .f32⟩ : BufTy).Contents (Elt F) → (⟨S10241x1024, .f32⟩ : BufTy).Contents (Elt F)),
    StableHlo.nullary main_c_4 (constantI S_ 32 0#32),
    StableHlo.unary main_c_4 main_v13 (broadcastInDim S8192 ![] bcast_S_S8192 : (⟨S_, .i32⟩ : BufTy).Contents (Elt F) → (⟨S8192, .i32⟩ : BufTy).Contents (Elt F)),
    StableHlo.binary main_v11 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 10241#32),
    StableHlo.unary main_c_5 main_v15 (broadcastInDim S8192 ![] bcast_S_S8192 : (⟨S_, .i32⟩ : BufTy).Contents (Elt F) → (⟨S8192, .i32⟩ : BufTy).Contents (Elt F)),
    StableHlo.binary main_v11 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v11 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v18 (broadcastInDim S8192x1 ![0] bcast_S8192_S8192x1_0 : (⟨S8192, .i32⟩ : BufTy).Contents (Elt F) → (⟨S8192x1, .i32⟩ : BufTy).Contents (Elt F)),
    StableHlo.ternary main_v12 main_v18 main_arg0 main_v19 ((fun x i u => Host.scatter scatter_S10241x1024_S8192x1_S8192x1024_1_0_0_1 (fun _ b => b) x i u) : (⟨S10241x1024, .f32⟩ : BufTy).Contents (Elt F) → (⟨S8192x1, .i32⟩ : BufTy).Contents (Elt F) → (⟨S8192x1024, .f32⟩ : BufTy).Contents (Elt F) → (⟨S10241x1024, .f32⟩ : BufTy).Contents (Elt F)),
    StableHlo.unary main_v19 main_v20 ((extractStridedSlice S10240x1024 ![0, 0] · slices_S10241x1024_S10240x1024_0_0) : (⟨S10241x1024, .f32⟩ : BufTy).Contents (Elt F) → (⟨S10240x1024, .f32⟩ : BufTy).Contents (Elt F)),
    StableHlo.reshape main_v20 main_v21 rfl shapeCasts_S10240x1024_S8x1280x1024 ]

/-- The feed-forward stretch. -/
abbrev opsB : List (HloOp τ sig (Elt F)) :=
  [ StableHlo.binary main_v21 main_arg3 main_v22 ((fun l r => Host.dotGeneral dot_S8x1280x1024_S8x1024x2816_S8x1280x2816_2_1_1_2_0_0 none l r) : (⟨S8x1280x1024, .f32⟩ : BufTy).Contents (Elt F) → (⟨S8x1024x2816, .f32⟩ : BufTy).Contents (Elt F) → (⟨S8x1280x2816, .f32⟩ : BufTy).Contents (Elt F)),
    StableHlo.binary main_v21 main_arg4 main_v23 ((fun l r => Host.dotGeneral dot_S8x1280x1024_S8x1024x2816_S8x1280x2816_2_1_1_2_0_0 none l r) : (⟨S8x1280x1024, .f32⟩ : BufTy).Contents (Elt F) → (⟨S8x1024x2816, .f32⟩ : BufTy).Contents (Elt F) → (⟨S8x1280x2816, .f32⟩ : BufTy).Contents (Elt F)),
    StableHlo.TRef.unary (.of main_v22 : StableHlo.TRef sig ⟨S8x1280x2816, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S8x1280x2816 ![] bcast_S_S8x1280x2816),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S8x1280x2816 ![] bcast_S_S8x1280x2816),
    StableHlo.TRef.binary main_call3.v4 main_call3.v3 main_call3.v5 Host.divf,
    StableHlo.TRef.binary (.of main_v22 : StableHlo.TRef sig ⟨S8x1280x2816, .f32⟩) main_call3.v5 main_call3.v6 mulf,
    StableHlo.binary main_v24 main_v23 main_v25 (mulf : (⟨S8x1280x2816, .f32⟩ : BufTy).Contents (Elt F) → (⟨S8x1280x2816, .f32⟩ : BufTy).Contents (Elt F) → (⟨S8x1280x2816, .f32⟩ : BufTy).Contents (Elt F)),
    StableHlo.binary main_v25 main_arg5 main_v26 ((fun l r => Host.dotGeneral dot_S8x1280x2816_S8x2816x1024_S8x1280x1024_2_1_1_2_0_0 none l r) : (⟨S8x1280x2816, .f32⟩ : BufTy).Contents (Elt F) → (⟨S8x2816x1024, .f32⟩ : BufTy).Contents (Elt F) → (⟨S8x1280x1024, .f32⟩ : BufTy).Contents (Elt F)) ]

/-- The way back. -/
abbrev opsC : List (HloOp τ sig (Elt F)) :=
  [ StableHlo.reshape main_v26 main_v27 rfl shapeCasts_S8x1280x1024_S10240x1024,
    StableHlo.nullary main_cst_6 (constant S_ .f32 0x00000000#32),
    StableHlo.unary main_cst_6 main_v28 (broadcastInDim S1x1024 ![] bcast_S_S1x1024 : (⟨S_, .f32⟩ : BufTy).Contents (Elt F) → (⟨S1x1024, .f32⟩ : BufTy).Contents (Elt F)),
    StableHlo.binary main_v27 main_v28 main_v29 ((fun a b => concatenate S10241x1024 0 [⟨S10240x1024, a⟩, ⟨S1x1024, b⟩] concatenates_S10240x1024_S1x1024_S10241x1024_d0) : (⟨S10240x1024, .f32⟩ : BufTy).Contents (Elt F) → (⟨S1x1024, .f32⟩ : BufTy).Contents (Elt F) → (⟨S10241x1024, .f32⟩ : BufTy).Contents (Elt F)),
    StableHlo.nullary main_c_7 (constantI S_ 32 0#32),
    StableHlo.unary main_c_7 main_v30 (broadcastInDim S8192 ![] bcast_S_S8192 : (⟨S_, .i32⟩ : BufTy).Contents (Elt F) → (⟨S8192, .i32⟩ : BufTy).Contents (Elt F)),
    StableHlo.binary main_v11 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 10241#32),
    StableHlo.unary main_c_8 main_v32 (broadcastInDim S8192 ![] bcast_S_S8192 : (⟨S_, .i32⟩ : BufTy).Contents (Elt F) → (⟨S8192, .i32⟩ : BufTy).Contents (Elt F)),
    StableHlo.binary main_v11 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v11 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_v29 main_v35 main_v36 ((fun x i => Host.gather gather_S10241x1024_S8192x1_S8192x1024_1_0_n_n_0_1_11024 x i) : (⟨S10241x1024, .f32⟩ : BufTy).Contents (Elt F) → (⟨S8192x1, .i32⟩ : BufTy).Contents (Elt F) → (⟨S8192x1024, .f32⟩ : BufTy).Contents (Elt F)),
    StableHlo.unary main_v7 main_v37 (broadcastInDim S8192x1 ![0] bcast_S8192_S8192x1_0 : (⟨S8192, .i1⟩ : BufTy).Contents (Elt F) → (⟨S8192x1, .i1⟩ : BufTy).Contents (Elt F)),
    StableHlo.unary main_arg2 main_v38 (broadcastInDim S8192x1 ![0] bcast_S8192_S8192x1_0 : (⟨S8192, .f32⟩ : BufTy).Contents (Elt F) → (⟨S8192x1, .f32⟩ : BufTy).Contents (Elt F)),
    StableHlo.unary main_v38 main_v39 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v36 main_v39 main_v40 (mulf : (⟨S8192x1024, .f32⟩ : BufTy).Contents (Elt F) → (⟨S8192x1024, .f32⟩ : BufTy).Contents (Elt F) → (⟨S8192x1024, .f32⟩ : BufTy).Contents (Elt F)),
    StableHlo.TRef.unary (.of main_v37 : StableHlo.TRef sig ⟨S8192x1, .i1⟩) main_call4.v0 (broadcastInDim S8192x1024 ![0, 1] bcast_S8192x1_S8192x1024_0_1),
    StableHlo.TRef.ternary main_call4.v0 (.of main_v40 : StableHlo.TRef sig ⟨S8192x1024, .f32⟩) (.of main_arg0 : StableHlo.TRef sig ⟨S8192x1024, .f32⟩) main_call4.v1 select ]

/-- The reference's operations in order. -/
abbrev ops : List (HloOp τ sig (Elt F)) := opsA ++ (opsB ++ opsC)

/-- The reference's entry point is that straight line: the called functions unfold at their calls and sequencing
    re-associates, all by computation. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.binary_bufs_sub .., StableHlo.nullary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.binary_bufs_sub .., StableHlo.nullary_bufs_sub .., StableHlo.unary_bufs_sub ..,
    StableHlo.unary_bufs_sub .., StableHlo.ternary_bufs_sub .., StableHlo.nullary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.ternary_bufs_sub .., StableHlo.unary_bufs_sub .., StableHlo.reshape_bufs_sub ..⟩
theorem opsB_sub : (opsB : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.binary_bufs_sub .., StableHlo.binary_bufs_sub ..,
    StableHlo.binary_bufs_sub ..⟩
theorem opsC_sub : (opsC : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.unary_bufs_sub .., StableHlo.binary_bufs_sub .., StableHlo.unary_bufs_sub ..,
    StableHlo.ternary_bufs_sub ..⟩

theorem ops_sub : (ops : List (HloOp τ sig (Elt F))).Forall fun op => op.bufs ⊆ StableHlo.tcRefs τ sig :=
  List.forall_iff_forall_mem.mpr fun op h => by
    simp only [ops, List.mem_append] at h
    rcases h with h | h | h
    exacts [List.forall_iff_forall_mem.mp opsA_sub op h, List.forall_iff_forall_mem.mp opsB_sub op h,
      List.forall_iff_forall_mem.mp opsC_sub op h]

/-- Every weakly fair execution of the reference terminates, and every buffer ends at the fold of the operations over
    what the memory held at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.Hand

end
-- ==== Proof.Routing.lean ====
/-
  The routing around the expert feed-forward block, as named functions of the arguments.

  Each token `t` carries an expert id `idx[t]`. `onehot` marks the token's expert among the 8, `pos` is the token's
  position in its expert's first-come-first-served queue (the running count of earlier tokens of the same expert), and
  `keep` says the position is below the capacity 1280. A kept token's `slot` is `idx · 1280 + pos`; every other token is
  sent to the overflow row 10240. `dispatch` scatters the token rows into a zero `[10241, 1024]` table at their slots
  (negative slots wrapped once by 10241, as the indexing does), drops the overflow row and lays the rest out as
  `[8, 1280, 1024]`. `combine` lays an `[8, 1280, 1024]` expert output back out as rows, appends a zero overflow row,
  gathers each token's row at its slot, scales it by the token's score, and passes the token through unchanged where it
  was not kept. `refFfn` is the feed-forward block in the reference's operations: two batched projections, the gate
  through `g ↦ g · (1 / (1 + e^(-g)))`, their product, and the batched down projection.

  `result_eq` reads the reference's result buffer: it is `combine` of `refFfn` of `dispatch`.
-/
import proofs.«144199_j63694364999794_1_alg».proof.Proof.RefRun
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The token's expert marked among the eight, as 32-bit words. -/
def onehot (idx : IVec S8192 32) : IVec S8192x8 32 :=
  extui 32 (cmpi .eq (broadcastInDim S8192x8 ![0, 1] bcast_S8192x1_S8192x8_0_1 (broadcastInDim S8192x1 ![0] bcast_S8192_S8192x1_0 idx))
    (broadcastInDim S8192x8 ![0, 1] bcast_S1x8_S8192x8_0_1 (iotaInDim S1x8 32 1))) natLt_1_32

/-- The token's position in its expert's queue: the running count down the tokens, less one, read at the token's expert. -/
def pos (idx : IVec S8192 32) : IVec S8192 32 :=
  Host.reduce IntOp.addi
    (muli (subi (Host.reduceWindow IntOp.addi ![8192, 1] ![1, 1] ![8191, 0] ![0, 0] (onehot idx)
            (broadcastInDim S_ ![] bcast_S_S_ (constantI S_ 32 0#32)) reduceWindows_S8192x8_S8192x8_w8192s1p8191_0_w1s1p0_0 h_S_)
          (broadcastInDim S8192x8 ![] bcast_S_S8192x8 (constantI S_ 32 1#32)))
      (onehot idx))
    (constantI S_ 32 0#32) reducesTo_S8192x8_S8192_d1 h_S_

/-- The token's position is below the capacity. -/
def keep (idx : IVec S8192 32) : IVec S8192 1 :=
  cmpi .slt (pos idx) (broadcastInDim S8192 ![] bcast_S_S8192 (constantI S_ 32 1280#32))

/-- The token's dispatch slot: `idx · 1280 + pos` when kept, the overflow row otherwise. -/
def slot (idx : IVec S8192 32) : IVec S8192 32 :=
  select (keep idx)
    (addi (muli idx (broadcastInDim S8192 ![] bcast_S_S8192 (constantI S_ 32 1280#32))) (pos idx))
    (broadcastInDim S8192 ![] bcast_S_S8192 (constantI S_ 32 10240#32))

/-- Slots as a column of row indices into the `[10241, 1024]` table, a negative one wrapped once by 10241. -/
def wrappedOf (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 10241#32))) s)

/-- The tokens' slots as that column. -/
def wrapped (idx : IVec S8192 32) : IVec S8192x1 32 := wrappedOf (slot idx)

/-- The per-expert token buffer: the token rows scattered to their slots in a zero table, the overflow row dropped. -/
def dispatch (x : FVec F S8192x1024 .f32) (idx : IVec S8192 32) : FVec F S8x1280x1024 .f32 :=
  shapeCast S8x1280x1024
    (extractStridedSlice S10240x1024 ![0, 0]
      (Host.scatter scatter_S10241x1024_S8192x1_S8192x1024_1_0_0_1 (fun _ b => b)
        (broadcastInDim S10241x1024 ![] bcast_S_S10241x1024 (constant S_ .f32 0x00000000#32)) (wrapped idx) x)
      slices_S10241x1024_S10240x1024_0_0)
    shapeCasts_S10240x1024_S8x1280x1024

/-- The way back, from the kept flags `k` and the slots `s`: each token reads its slot's row of the expert output (a zero
    row at the overflow slot), scaled by its score; a token that was not kept passes through. -/
def combineOf (out : FVec F S8x1280x1024 .f32) (k : IVec S8192 1) (s : IVec S8192 32) (scores : FVec F S8192 .f32)
    (x : FVec F S8192x1024 .f32) : FVec F S8192x1024 .f32 :=
  select (broadcastInDim S8192x1024 ![0, 1] bcast_S8192x1_S8192x1024_0_1 (broadcastInDim S8192x1 ![0] bcast_S8192_S8192x1_0 k))
    (mulf
      (Host.gather gather_S10241x1024_S8192x1_S8192x1024_1_0_n_n_0_1_11024
        (concatenate S10241x1024 0
          [⟨S10240x1024, shapeCast S10240x1024 out shapeCasts_S8x1280x1024_S10240x1024⟩,
           ⟨S1x1024, broadcastInDim S1x1024 ![] bcast_S_S1x1024 (constant S_ .f32 0x00000000#32)⟩]
          concatenates_S10240x1024_S1x1024_S10241x1024_d0)
        (wrappedOf s))
      (broadcastInDim S8192x1024 ![0, 1] bcast_S8192x1_S8192x1024_0_1 (broadcastInDim S8192x1 ![0] bcast_S8192_S8192x1_0 scores)))
    x

/-- The way back for the tokens' own flags and slots. -/
def combine (out : FVec F S8x1280x1024 .f32) (idx : IVec S8192 32) (scores : FVec F S8192 .f32) (x : FVec F S8192x1024 .f32) :
    FVec F S8192x1024 .f32 :=
  combineOf out (keep idx) (slot idx) scores x

/-- The gate's activation in the reference's operations: `g · (1 / (1 + e^(-g)))`. -/
def gate (g : FVec F S8x1280x2816 .f32) : FVec F S8x1280x2816 .f32 :=
  mulf g
    (Host.divf (broadcastInDim S8x1280x2816 ![] bcast_S_S8x1280x2816 (constant S_ .f32 0x3F800000#32))
      (addf (broadcastInDim S8x1280x2816 ![] bcast_S_S8x1280x2816 (constant S_ .f32 0x3F800000#32)) (Host.exp (Host.negf g))))

/-- The feed-forward block in the reference's operations. -/
def refFfn (xe : FVec F S8x1280x1024 .f32) (wg wu : FVec F S8x1024x2816 .f32) (wd : FVec F S8x2816x1024 .f32) :
    FVec F S8x1280x1024 .f32 :=
  Host.dotGeneral dot_S8x1280x2816_S8x2816x1024_S8x1280x1024_2_1_1_2_0_0 none
    (mulf (gate (Host.dotGeneral dot_S8x1280x1024_S8x1024x2816_S8x1280x2816_2_1_1_2_0_0 none xe wg))
      (Host.dotGeneral dot_S8x1280x1024_S8x1024x2816_S8x1280x2816_2_1_1_2_0_0 none xe wu))
    wd

/-! ## The three stretches, read one at a time over any contents

The reductions, the scatter, the gather and the concatenation stay folded: no equation here looks inside them. -/

section Reads

attribute [local irreducible] Host.reduce Host.reduceWindow Host.gather Host.scatter concatenate

set_option maxRecDepth 16384 in
set_option maxHeartbeats 2000000 in
/-- After the routing stretch the kept flags are `keep` of the expert ids. -/
theorem keepA (V : Valuation τ sig (Elt F)) :
    StableHlo.after opsA V (main_v7 : DevRef τ sig) = keep (V (main_arg1 : DevRef τ sig)) := by
  after_results_simp
  unfold keep pos onehot
  rfl

set_option maxRecDepth 16384 in
set_option maxHeartbeats 2000000 in
/-- After the routing stretch the slots are `slot` of the expert ids. -/
theorem slotA (V : Valuation τ sig (Elt F)) :
    StableHlo.after opsA V (main_v11 : DevRef τ sig) = slot (V (main_arg1 : DevRef τ sig)) := by
  after_results_simp
  unfold slot keep pos onehot
  rfl

set_option maxRecDepth 16384 in
set_option maxHeartbeats 2000000 in
/-- After the routing stretch the per-expert buffer is `dispatch` of the tokens and the expert ids. -/
theorem xeA (V : Valuation τ sig (Elt F)) :
    StableHlo.after opsA V (main_v21 : DevRef τ sig) = dispatch (V (main_arg0 : DevRef τ sig)) (V (main_arg1 : DevRef τ sig)) := by
  after_results_simp
  unfold dispatch wrapped wrappedOf slot keep pos onehot
  rfl

theorem keptA_arg0 (V : Valuation τ sig (Elt F)) :
    StableHlo.after opsA V (main_arg0 : DevRef τ sig) = V (main_arg0 : DevRef τ sig) :=
  StableHlo.after_of_forall_not_mem (b := Proc.devRef .tc main_arg0) _ _ (List.forall_iff_forall_mem.mp (by
    simp only [opsA, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptA_arg2 (V : Valuation τ sig (Elt F)) :
    StableHlo.after opsA V (main_arg2 : DevRef τ sig) = V (main_arg2 : DevRef τ sig) :=
  StableHlo.after_of_forall_not_mem (b := Proc.devRef .tc main_arg2) _ _ (List.forall_iff_forall_mem.mp (by
    simp only [opsA, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptA_arg3 (V : Valuation τ sig (Elt F)) :
    StableHlo.after opsA V (main_arg3 : DevRef τ sig) = V (main_arg3 : DevRef τ sig) :=
  StableHlo.after_of_forall_not_mem (b := Proc.devRef .tc main_arg3) _ _ (List.forall_iff_forall_mem.mp (by
    simp only [opsA, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptA_arg4 (V : Valuation τ sig (Elt F)) :
    StableHlo.after opsA V (main_arg4 : DevRef τ sig) = V (main_arg4 : DevRef τ sig) :=
  StableHlo.after_of_forall_not_mem (b := Proc.devRef .tc main_arg4) _ _ (List.forall_iff_forall_mem.mp (by
    simp only [opsA, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptA_arg5 (V : Valuation τ sig (Elt F)) :
    StableHlo.after opsA V (main_arg5 : DevRef τ sig) = V (main_arg5 : DevRef τ sig) :=
  StableHlo.after_of_forall_not_mem (b := Proc.devRef .tc main_arg5) _ _ (List.forall_iff_forall_mem.mp (by
    simp only [opsA, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxRecDepth 16384 in
set_option maxHeartbeats 2000000 in
/-- After the feed-forward stretch the experts' output is `refFfn` of the per-expert buffer and the three weights. -/
theorem ffnB (W : Valuation τ sig (Elt F)) :
    StableHlo.after opsB W (main_v26 : DevRef τ sig)
      = refFfn (W (main_v21 : DevRef τ sig)) (W (main_arg3 : DevRef τ sig)) (W (main_arg4 : DevRef τ sig)) (W (main_arg5 : DevRef τ sig)) := by
  after_results_simp
  unfold refFfn gate
  rfl

theorem keptB_v7 (V : Valuation τ sig (Elt F)) :
    StableHlo.after opsB V (main_v7 : DevRef τ sig) = V (main_v7 : DevRef τ sig) :=
  StableHlo.after_of_forall_not_mem (b := Proc.devRef .tc main_v7) _ _ (List.forall_iff_forall_mem.mp (by
    simp only [opsB, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptB_v11 (V : Valuation τ sig (Elt F)) :
    StableHlo.after opsB V (main_v11 : DevRef τ sig) = V (main_v11 : DevRef τ sig) :=
  StableHlo.after_of_forall_not_mem (b := Proc.devRef .tc main_v11) _ _ (List.forall_iff_forall_mem.mp (by
    simp only [opsB, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptB_arg0 (V : Valuation τ sig (Elt F)) :
    StableHlo.after opsB V (main_arg0 : DevRef τ sig) = V (main_arg0 : DevRef τ sig) :=
  StableHlo.after_of_forall_not_mem (b := Proc.devRef .tc main_arg0) _ _ (List.forall_iff_forall_mem.mp (by
    simp only [opsB, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem keptB_arg2 (V : Valuation τ sig (Elt F)) :
    StableHlo.after opsB V (main_arg2 : DevRef τ sig) = V (main_arg2 : DevRef τ sig) :=
  StableHlo.after_of_forall_not_mem (b := Proc.devRef .tc main_arg2) _ _ (List.forall_iff_forall_mem.mp (by
    simp only [opsB, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxRecDepth 16384 in
set_option maxHeartbeats 2000000 in
/-- After the way back the result is `combineOf` of the five buffers the stretch reads. -/
theorem wayBackC (W : Valuation τ sig (Elt F)) :
    StableHlo.after opsC W (main_v41 : DevRef τ sig)
      = combineOf (W (main_v26 : DevRef τ sig)) (W (main_v7 : DevRef τ sig)) (W (main_v11 : DevRef τ sig))
          (W (main_arg2 : DevRef τ sig)) (W (main_arg0 : DevRef τ sig)) := by
  after_results_simp
  unfold combineOf wrappedOf
  rfl

end Reads

/-- The fold of the reference's operations at its result buffer is `combine` of `refFfn` of `dispatch` of the arguments:
    the way back reads the feed-forward stretch's output and, past it, the routing stretch's flags and slots. -/
theorem result_eq (V : Valuation τ sig (Elt F)) :
    StableHlo.after ops V (main_v41 : DevRef τ sig)
      = combine (refFfn (dispatch (V (main_arg0 : DevRef τ sig)) (V (main_arg1 : DevRef τ sig)))
            (V (main_arg3 : DevRef τ sig)) (V (main_arg4 : DevRef τ sig)) (V (main_arg5 : DevRef τ sig)))
          (V (main_arg1 : DevRef τ sig)) (V (main_arg2 : DevRef τ sig)) (V (main_arg0 : DevRef τ sig)) := by
  show StableHlo.after (opsA ++ (opsB ++ opsC)) V _ = _
  rw [StableHlo.after_append, StableHlo.after_append, wayBackC, ffnB, keptB_v7, keptB_v11, keptB_arg0, keptB_arg2,
    xeA, keepA, slotA, keptA_arg0, keptA_arg2, keptA_arg3, keptA_arg4, keptA_arg5]
  rfl

end Cert.ReferenceIdeal.Hand

end
-- ==== Proof.LibBatchedDot.lean ====
/-
  General lemma: a batched matrix product `[B,M,K]·[B,K,N]` read at an index, at the ideal instance.

  The batch axis is axis 0 of both operands, the left operand's last axis is contracted with the right operand's middle
  axis: the dimension numbers of `einsum('bmk,bkn->bmn')` as a `dot_general`. At `(b, p, c)` the product is
  `Σ k, lhs (b, p, k) · rhs (b, k, c)`: the batch coordinate is shared, the row comes from the left operand, the column
  from the right one, and the one contracted coordinate runs over `Fin K`.
-/
import Idealize.ShloMosaic.PureOps.Ideal.Laws
import Idealize.ShloMosaic.Lib.ValueIdx

noncomputable section

namespace Cert.BatchedDot

open Idealize.ShloMosaic Idealize.ShloMosaic.ValueIdx

/-- A batched product `[B,M,K]·[B,K,N]` on the host, read at `(b, p, c)`: the sum over `k` of
    `lhs (b, p, k) · rhs (b, k, c)`, whatever the schedule key. -/
theorem dotGeneral_apply {B M K N : ℕ} {φ₁ φ₂ : FTy}
    (wf : DotDims.WF ⟨3, ![B, M, K]⟩ ⟨3, ![B, K, N]⟩ ⟨3, ![B, M, N]⟩ [2] [1] [1] [2] [0] [0])
    (prec : Option ContractPrecision) (sched : HostSchedule)
    (lhs : FVec Ideal ⟨3, ![B, M, K]⟩ φ₁) (rhs : FVec Ideal ⟨3, ![B, K, N]⟩ φ₂)
    (b : Fin B) (p : Fin M) (c : Fin N) :
    FloatOps.dotGeneral (⟨[2], [1], [1], [2], [0], [0], wf⟩ : DotDims ⟨3, ![B, M, K]⟩ ⟨3, ![B, K, N]⟩ ⟨3, ![B, M, N]⟩) prec sched lhs rhs
        (ix3 b p c)
      = ∑ k : Fin K, lhs (ix3 b p k) * rhs (ix3 b k c) := by
  set D : DotDims ⟨3, ![B, M, K]⟩ ⟨3, ![B, K, N]⟩ ⟨3, ![B, M, N]⟩ := ⟨[2], [1], [1], [2], [0], [0], wf⟩ with hD
  -- the left operand's index: batch and row from the result index, the last coordinate from the contraction
  have l0 : ∀ (i : (⟨3, ![B, M, N]⟩ : Shape).Idx) (q : D.contr.Idx), (D.lhsIdx i q 0).val = (i 0).val := by
    intro i q
    unfold DotDims.lhsIdx
    rw [dif_pos (show (0 : Fin 3) ∈ D.lhsBatch from List.mem_singleton.mpr rfl)]
    rfl
  have l1 : ∀ (i : (⟨3, ![B, M, N]⟩ : Shape).Idx) (q : D.contr.Idx), (D.lhsIdx i q 1).val = (i 1).val := by
    intro i q
    unfold DotDims.lhsIdx
    rw [dif_neg (show ¬(1 : Fin 3) ∈ D.lhsBatch from fun h => absurd (Fin.val_eq_of_eq (List.mem_singleton.mp h)) (Nat.succ_ne_zero 0)),
      dif_pos (show (1 : Fin 3) ∈ D.lhsNonContracting from List.mem_singleton.mpr rfl)]
    rfl
  have l2 : ∀ (i : (⟨3, ![B, M, N]⟩ : Shape).Idx) (q : D.contr.Idx), (D.lhsIdx i q 2).val = (q ⟨0, Nat.one_pos⟩).val :=
    fun i q => D.lhsIdx_val_of_single rfl i q
  -- the right operand's index: batch from the result index, the middle coordinate from the contraction, the column from the result
  have r0 : ∀ (i : (⟨3, ![B, M, N]⟩ : Shape).Idx) (q : D.contr.Idx), (D.rhsIdx i q 0).val = (i 0).val := by
    intro i q
    unfold DotDims.rhsIdx
    rw [dif_pos (show (0 : Fin 3) ∈ D.rhsBatch from List.mem_singleton.mpr rfl)]
    rfl
  have r1 : ∀ (i : (⟨3, ![B, M, N]⟩ : Shape).Idx) (q : D.contr.Idx), (D.rhsIdx i q 1).val = (q ⟨0, Nat.one_pos⟩).val :=
    fun i q => D.rhsIdx_val_of_single rfl i q
  have r2 : ∀ (i : (⟨3, ![B, M, N]⟩ : Shape).Idx) (q : D.contr.Idx), (D.rhsIdx i q 2).val = (i 2).val := by
    intro i q
    unfold DotDims.rhsIdx
    rw [dif_neg (show ¬(2 : Fin 3) ∈ D.rhsBatch from fun h => absurd (Fin.val_eq_of_eq (List.mem_singleton.mp h)) (Nat.succ_ne_zero 1)),
      dif_pos (show (2 : Fin 3) ∈ D.rhsNonContracting from List.mem_singleton.mpr rfl)]
    rfl
  rw [Ideal.dotGeneral_apply, ← Equiv.sum_comp (contrEquiv1 D K rfl rfl).symm]
  refine Finset.sum_congr rfl fun k _ => ?_
  have hk := contrEquiv1_symm_val D K rfl rfl k
  have el : D.lhsIdx (ix3 b p c) ((contrEquiv1 D K rfl rfl).symm k) = ix3 b p k := funext fun ax => Fin.ext (by
    match ax with
    | ⟨0, _⟩ => exact l0 _ _
    | ⟨1, _⟩ => exact l1 _ _
    | ⟨2, _⟩ => exact (l2 _ _).trans hk)
  have er : D.rhsIdx (ix3 b p c) ((contrEquiv1 D K rfl rfl).symm k) = ix3 b k c := funext fun ax => Fin.ext (by
    match ax with
    | ⟨0, _⟩ => exact r0 _ _
    | ⟨1, _⟩ => exact (r1 _ _).trans hk
    | ⟨2, _⟩ => exact r2 _ _)
  rw [el, er]

end Cert.BatchedDot

end
-- ==== Proof.RefFfn.lean ====
/-
  The reference's feed-forward operations are the feed-forward function, entry by entry, on the extended reals.

  A batched product read at `(e, r, h)` is the sum over the contracted coordinate, so the two projections are
  `Cert.Ffn.proj`. The gate `g · (1 / (1 + e^(-g)))` is `g · σ(g)`: the word `0x3F800000` denotes `1`, and the logistic
  function at the ideal instance IS `1 / (1 + e^(-g))` with the same conventions at the infinities. The down projection
  is again a batched product. No law beyond reading the sums is used.
-/
import proofs.«144199_j63694364999794_1_alg».proof.Proof.Routing
import proofs.«144199_j63694364999794_1_alg».proof.Proof.LibBatchedDot
import proofs.«144199_j63694364999794_1_alg».proof.Proof.Ffn

noncomputable section

namespace Cert.ReferenceIdeal.Hand

open Cert.ReferenceIdeal Cert.ReferenceIdeal.Gen Idealize.ShloMosaic Idealize.ShloMosaic.ValueIdx

/-- The f32 word of `1.0` denotes the extended real `1`. -/
theorem one_f32 : Ideal.ofBits .f32 0x3F800000#32 = 1 := IdealRules.sign_bit.ideal_onePat .f32

/-- The reference's gate at an entry: `g · σ(g)`. -/
theorem gate_apply (g : FVec Ideal S8x1280x2816 .f32) (i : S8x1280x2816.Idx) :
    gate g i = g i * Ideal.logistic (g i) := by
  show g i * Ideal.div (Ideal.ofBits .f32 0x3F800000#32) (Ideal.ofBits .f32 0x3F800000#32 + Ideal.exp (-(g i))) = _
  rw [one_f32]
  rfl

/-- A projection of the reference at `(e, r, h)`. -/
theorem proj_apply (xe : FVec Ideal S8x1280x1024 .f32) (w : FVec Ideal S8x1024x2816 .f32) (e : Fin 8) (r : Fin 1280) (h : Fin 2816) :
    Host.dotGeneral dot_S8x1280x1024_S8x1024x2816_S8x1280x2816_2_1_1_2_0_0 none xe w (ix3 e r h) = Cert.Ffn.proj xe w e r h :=
  Cert.BatchedDot.dotGeneral_apply dot_S8x1280x1024_S8x1024x2816_S8x1280x2816_2_1_1_2_0_0_wf none .single xe w e r h

/-- The reference's feed-forward operations compute the feed-forward function. -/
theorem refFfn_eq (xe : FVec Ideal S8x1280x1024 .f32) (wg wu : FVec Ideal S8x1024x2816 .f32) (wd : FVec Ideal S8x2816x1024 .f32) :
    refFfn xe wg wu wd = Cert.Ffn.ffn xe wg wu wd := by
  funext i
  obtain ⟨e, r, j, rfl⟩ : ∃ (e : Fin 8) (r : Fin 1280) (j : Fin 1024), i = ix3 e r j := ⟨i 0, i 1, i 2, eq_ix3 i⟩
  rw [Cert.Ffn.ffn_apply]
  unfold refFfn Cert.Ffn.out Cert.Ffn.hidden
  refine (Cert.BatchedDot.dotGeneral_apply dot_S8x1280x2816_S8x2816x1024_S8x1280x1024_2_1_1_2_0_0_wf none .single _ wd e r j).trans ?_
  refine Finset.sum_congr rfl fun h _ => ?_
  refine congrArg (· * wd (ix3 e h j)) ?_
  show gate _ (ix3 e r h) * _ = _
  rw [gate_apply, proj_apply, proj_apply]

/-- The result both programs reach, as a function of the six arguments: the way back applied to the feed-forward function of
    the dispatched tokens and the three weights. -/
def result (x : FVec Ideal S8192x1024 .f32) (idx : IVec S8192 32) (sc : FVec Ideal S8192 .f32)
    (wg wu : FVec Ideal S8x1024x2816 .f32) (wd : FVec Ideal S8x2816x1024 .f32) : FVec Ideal S8192x1024 .f32 :=
  combine (F := Ideal) (Cert.Ffn.ffn (dispatch (F := Ideal) x idx) wg wu wd) idx sc x

end Cert.ReferenceIdeal.Hand

end
-- ==== Proof.KernelValue.lean ====
/-
  The kernel program's result, read: the routing functions around the feed-forward array.

  Before the region the program computes the kept flags, the slots and the per-expert token buffer exactly as the
  reference does (then narrows the buffer and the three weights to a shorter float format, the identity on extended
  reals); after it, it lays the region's output back out and gathers, scales and passes through exactly as the reference
  does. So the region finds `dispatch` of the tokens and the three weights themselves, the output array ends at the
  feed-forward function of those, and the result buffer ends at `combine` of that array.
-/
import proofs.«144199_j63694364999794_1_alg».proof.Proof.KernelArray
import proofs.«144199_j63694364999794_1_alg».proof.Proof.RefFfn
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

/-- `combineOf` of equal operands. -/
theorem combineOf_congr {o o' : FVec Ideal Cert.ReferenceIdeal.S8x1280x1024 .f32} {k k' : IVec Cert.ReferenceIdeal.S8192 1}
    {s s' : IVec Cert.ReferenceIdeal.S8192 32} {sc sc' : FVec Ideal Cert.ReferenceIdeal.S8192 .f32}
    {x x' : FVec Ideal Cert.ReferenceIdeal.S8192x1024 .f32} (ho : o = o') (hk : k = k') (hs : s = s') (hsc : sc = sc') (hx : x = x') :
    Cert.ReferenceIdeal.Hand.combineOf o k s sc x = Cert.ReferenceIdeal.Hand.combineOf o' k' s' sc' x' := by
  subst ho hk hs hsc hx; rfl

/-! ## What the region finds -/

attribute [local irreducible] Host.reduce Host.reduceWindow Host.gather Host.scatter concatenate in
set_option maxRecDepth 16384 in
set_option maxHeartbeats 4000000 in
/-- The kept flags when the region is entered. -/
theorem keep_eq (c : Dev nD) :
    (V0 m c (Proc.devRef .tc main_v7) : IVec S8192 1) = Cert.ReferenceIdeal.Hand.keep (m ((c : Thread nD τ).loc main_arg1)) := by
  dsimp only [V0]
  simp only [hostOps0, hostOps0_1, hostOps0_2, hostOps0_3, hostOps0_4, List.flatten_cons, List.flatten_nil, List.append_nil,
    List.cons_append, List.nil_append]
  after_results_simp
  unfold Cert.ReferenceIdeal.Hand.keep Cert.ReferenceIdeal.Hand.pos Cert.ReferenceIdeal.Hand.onehot
  rfl

attribute [local irreducible] Host.reduce Host.reduceWindow Host.gather Host.scatter concatenate in
set_option maxRecDepth 16384 in
set_option maxHeartbeats 4000000 in
/-- The slots when the region is entered. -/
theorem slot_eq (c : Dev nD) :
    (V0 m c (Proc.devRef .tc main_v11) : IVec S8192 32) = Cert.ReferenceIdeal.Hand.slot (m ((c : Thread nD τ).loc main_arg1)) := by
  dsimp only [V0]
  simp only [hostOps0, hostOps0_1, hostOps0_2, hostOps0_3, hostOps0_4, List.flatten_cons, List.flatten_nil, List.append_nil,
    List.cons_append, List.nil_append]
  after_results_simp
  unfold Cert.ReferenceIdeal.Hand.slot Cert.ReferenceIdeal.Hand.keep Cert.ReferenceIdeal.Hand.pos Cert.ReferenceIdeal.Hand.onehot
  rfl

attribute [local irreducible] Host.reduce Host.reduceWindow Host.gather Host.scatter concatenate in
set_option maxRecDepth 16384 in
set_option maxHeartbeats 4000000 in
/-- The token window's array: the per-expert token buffer (its narrowing the identity). -/
theorem xe_eq (c : Dev nD) :
    (V m c (Pipeline.arrRef spec0 0) : S8x1280x1024.Idx → EReal)
      = Cert.ReferenceIdeal.Hand.dispatch (F := Ideal) (m ((c : Thread nD τ).loc main_arg0)) (m ((c : Thread nD τ).loc main_arg1)) := by
  show StableHlo.after (List.flatten [hostOps0, hostOps0_1, hostOps0_2, hostOps0_3, hostOps0_4]) (fun b => m (c, b)) (Proc.devRef .tc main_v22) = _
  simp only [hostOps0, hostOps0_1, hostOps0_2, hostOps0_3, hostOps0_4, List.flatten_cons, List.flatten_nil, List.append_nil,
    List.cons_append, List.nil_append]
  after_results_simp
  unfold Cert.ReferenceIdeal.Hand.dispatch Cert.ReferenceIdeal.Hand.wrapped Cert.ReferenceIdeal.Hand.wrappedOf Cert.ReferenceIdeal.Hand.slot Cert.ReferenceIdeal.Hand.keep Cert.ReferenceIdeal.Hand.pos Cert.ReferenceIdeal.Hand.onehot
  rfl

set_option maxRecDepth 16384 in
set_option maxHeartbeats 4000000 in
/-- The gate weight window's array: the gate weights (their narrowing the identity). -/
theorem wg_eq (c : Dev nD) :
    (V m c (Pipeline.arrRef spec0 1) : S8x1024x2816.Idx → EReal) = m ((c : Thread nD τ).loc main_arg3) := by
  show StableHlo.after (List.flatten [hostOps0, hostOps0_1, hostOps0_2, hostOps0_3, hostOps0_4]) (fun b => m (c, b)) (Proc.devRef .tc main_v23) = _
  simp only [hostOps0, hostOps0_1, hostOps0_2, hostOps0_3, hostOps0_4, List.flatten_cons, List.flatten_nil, List.append_nil,
    List.cons_append, List.nil_append]
  after_results_simp
  rfl

set_option maxRecDepth 16384 in
set_option maxHeartbeats 4000000 in
/-- The up weight window's array: the up weights. -/
theorem wu_eq (c : Dev nD) :
    (V m c (Pipeline.arrRef spec0 2) : S8x1024x2816.Idx → EReal) = m ((c : Thread nD τ).loc main_arg4) := by
  show StableHlo.after (List.flatten [hostOps0, hostOps0_1, hostOps0_2, hostOps0_3, hostOps0_4]) (fun b => m (c, b)) (Proc.devRef .tc main_v24) = _
  simp only [hostOps0, hostOps0_1, hostOps0_2, hostOps0_3, hostOps0_4, List.flatten_cons, List.flatten_nil, List.append_nil,
    List.cons_append, List.nil_append]
  after_results_simp
  rfl

set_option maxRecDepth 16384 in
set_option maxHeartbeats 4000000 in
/-- The down weight window's array: the down weights. -/
theorem wd_eq (c : Dev nD) :
    (V m c (Pipeline.arrRef spec0 3) : S8x2816x1024.Idx → EReal) = m ((c : Thread nD τ).loc main_arg5) := by
  show StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil,
    List.cons_append, List.nil_append]
  after_results_simp
  rfl

/-- So the output array ends at the feed-forward function of the dispatched tokens and the three weights. -/
theorem G_eq (c : Dev nD) :
    Array.G m c = Cert.Ffn.ffn (Cert.ReferenceIdeal.Hand.dispatch (F := Ideal) (m ((c : Thread nD τ).loc main_arg0)) (m ((c : Thread nD τ).loc main_arg1)))
      (m ((c : Thread nD τ).loc main_arg3)) (m ((c : Thread nD τ).loc main_arg4)) (m ((c : Thread nD τ).loc main_arg5)) := by
  unfold Array.G
  rw [xe_eq m c, wg_eq m c, wu_eq m c, wd_eq m c]

/-! ## The lines after the region -/

attribute [local irreducible] Host.gather concatenate in
set_option maxRecDepth 16384 in
set_option maxHeartbeats 4000000 in
/-- The lines after the region, at the result buffer, from any contents: `combineOf` of the five buffers they read. -/
theorem tail_eq (W : Valuation τ sig (Elt Ideal)) :
    (StableHlo.after (List.flatten [hostOps1, hostOps1_1]) W (Proc.devRef .tc main_v41) : FVec Ideal S8192x1024 .f32)
      = Cert.ReferenceIdeal.Hand.combineOf (F := Ideal) (W (Proc.devRef .tc main_v26)) (W (Proc.devRef .tc main_v7)) (W (Proc.devRef .tc main_v11))
          (W (Proc.devRef .tc main_arg2)) (W (Proc.devRef .tc main_arg0)) := by
  simp only [hostOps1, hostOps1_1, List.flatten_cons, List.flatten_nil, List.append_nil, List.cons_append, List.nil_append]
  after_results_simp
  unfold Cert.ReferenceIdeal.Hand.combineOf Cert.ReferenceIdeal.Hand.wrappedOf
  rfl

/-- The result buffer after the run: the way back applied to the output array. -/
theorem result_eq (c : Dev nD) :
    (Pipeline.afterTail₀ cfgs (dats m) 0 (V0 m) [hostOps1, hostOps1_1] c main_v41 : FVec Ideal S8192x1024 .f32)
      = Cert.ReferenceIdeal.Hand.combine (F := Ideal) (Array.G m c) (m ((c : Thread nD τ).loc main_arg1)) (m ((c : Thread nD τ).loc main_arg2))
          (m ((c : Thread nD τ).loc main_arg0)) := by
  unfold Pipeline.afterTail₀
  refine (tail_eq _).trans ?_
  unfold Cert.ReferenceIdeal.Hand.combine
  refine combineOf_congr ?_ ?_ ?_ ?_ ?_
  · exact (Pipeline.withArrays_arr _ launch0.win.arr_inj c _ _ 4).trans (Array.final m c)
  · exact (Pipeline.withArrays_of_ne _ c (V0 m c) _ main_v7 (by exact (by decide : ∀ w, Pipeline.arrRef spec0 w ≠ main_v7))).trans (keep_eq m c)
  · exact (Pipeline.withArrays_of_ne _ c (V0 m c) _ main_v11 (by exact (by decide : ∀ w, Pipeline.arrRef spec0 w ≠ main_v11))).trans (slot_eq m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg0 (by exact (by decide : ∀ w, Pipeline.arrRef spec0 w ≠ main_arg0))).trans (V_main_arg0 m c)

/-! ## The run, read -/

/-- Every weakly fair execution of the kernel program terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v41) = Cert.ReferenceIdeal.Hand.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v41 (Pipeline.mem_restRefs_of main_v41 (by decide) (by decide))).trans ((result_eq m c).trans (by rw [G_eq m c]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefValue.lean ====
/-
  The reference program's run, read: its result buffer ends at `result` of the arguments, and the arguments end unchanged.

  The fold of the operations at the result buffer is the way back applied to the reference's feed-forward operations of
  the dispatched tokens, and those operations compute the feed-forward function; no operation writes an argument's buffer.
-/
import proofs.«144199_j63694364999794_1_alg».proof.Proof.RefFfn

set_option maxRecDepth 16384

noncomputable section

namespace Cert.ReferenceIdeal.Hand

open Cert.ReferenceIdeal Cert.ReferenceIdeal.Gen Idealize.ShloMosaic Idealize.ShloMosaic.TcCoe Idealize.SL.Sem

section Kept
variable {F : FTy → Type} [FloatOps F]

/-- No operation writes argument 0: it ends as launched. -/
theorem arg0_eq (V : Valuation τ sig (Elt F)) : StableHlo.after ops V (main_arg0 : DevRef τ sig) = V (main_arg0 : DevRef τ sig) :=
  StableHlo.after_of_forall_not_mem (b := Proc.devRef .tc main_arg0) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation writes argument 1: it ends as launched. -/
theorem arg1_eq (V : Valuation τ sig (Elt F)) : StableHlo.after ops V (main_arg1 : DevRef τ sig) = V (main_arg1 : DevRef τ sig) :=
  StableHlo.after_of_forall_not_mem (b := Proc.devRef .tc main_arg1) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation writes argument 2: it ends as launched. -/
theorem arg2_eq (V : Valuation τ sig (Elt F)) : StableHlo.after ops V (main_arg2 : DevRef τ sig) = V (main_arg2 : DevRef τ sig) :=
  StableHlo.after_of_forall_not_mem (b := Proc.devRef .tc main_arg2) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation writes argument 3: it ends as launched. -/
theorem arg3_eq (V : Valuation τ sig (Elt F)) : StableHlo.after ops V (main_arg3 : DevRef τ sig) = V (main_arg3 : DevRef τ sig) :=
  StableHlo.after_of_forall_not_mem (b := Proc.devRef .tc main_arg3) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation writes argument 4: it ends as launched. -/
theorem arg4_eq (V : Valuation τ sig (Elt F)) : StableHlo.after ops V (main_arg4 : DevRef τ sig) = V (main_arg4 : DevRef τ sig) :=
  StableHlo.after_of_forall_not_mem (b := Proc.devRef .tc main_arg4) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- No operation writes argument 5: it ends as launched. -/
theorem arg5_eq (V : Valuation τ sig (Elt F)) : StableHlo.after ops V (main_arg5 : DevRef τ sig) = V (main_arg5 : DevRef τ sig) :=
  StableHlo.after_of_forall_not_mem (b := Proc.devRef .tc main_arg5) _ _ (List.forall_iff_forall_mem.mp (by
    simp only [ops, opsA, opsB, opsC, List.cons_append, List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Kept

/-- Every weakly fair execution of the reference terminates with the result buffer at `result` of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v41).trans ((result_eq (F := Ideal) (StableHlo.launchContents m c)).trans (by unfold result; rw [refFfn_eq])),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main (F := Ideal) m ρ)

end Cert.ReferenceIdeal.Hand

end
-- ==== Proof.lean ====
/-
  A capacity-dropping top-1 mixture-of-experts layer with a gated feed-forward block per expert: the kernel program
  against its reference, on the extended reals.

  Both programs route the same way. Each token's position in its expert's queue is the running count of earlier tokens
  of that expert; a token below the capacity 1280 goes to slot `expert · 1280 + position` of an `[8, 1280, 1024]` buffer,
  every other token to an overflow row that is dropped; afterwards each token reads its slot's row of the experts'
  output, is scaled by its routing score, and passes through unchanged if it was not kept. Between the two, expert `e`
  maps its buffer rows through `(g · σ(g) · u) · Wd[e]` with `g = x · Wg[e]`, `u = x · Wu[e]` and `σ` the logistic function.

  The reference computes that block with three batched products over all experts at once and writes `σ(g)` as
  `1 / (1 + e^(-g))`. The kernel narrows the buffer and the weights to a shorter float format (the identity on extended
  reals) and runs over a grid of 8 experts × 5 tiles of 256 slots, each point multiplying its 256 rows by its expert's
  whole matrices into zero accumulators and applying the logistic function directly. Entry by entry both are
  `Σ_h (g · σ(g) · u) · Wd[e, h, j]` with `g`, `u` sums over the 1024 features: a product into a zero accumulator and a
  batched product are the same sum over the contracted coordinate, the 40 blocks tile the output, and
  `1 / (1 + e^(-g))` is the logistic function with the same conventions at the infinities. No algebraic law is needed
  beyond reading the sums, so the inputs' finiteness is not used. The routing before and after the block is the same
  composition of operations in both programs and is carried as a function of the arguments, never opened.

  The two kernel programs' frames are the frames of a kernel whose body loads whole blocks, computes, and stores one
  whole block; the reference is a straight line of host operations, which always runs to its end.
-/
import proofs.«144199_j63694364999794_1_alg».proof.Defs
import proofs.«144199_j63694364999794_1_alg».proof.Proof.Gen.Kernel
import proofs.«144199_j63694364999794_1_alg».proof.Proof.Gen.Kernel.Frame
import proofs.«144199_j63694364999794_1_alg».proof.Proof.Gen.KernelIdeal
import proofs.«144199_j63694364999794_1_alg».proof.Proof.Gen.KernelIdeal.Frame
import proofs.«144199_j63694364999794_1_alg».proof.Proof.Gen.ReferenceIdeal
import proofs.«144199_j63694364999794_1_alg».proof.Proof.Gen.Pre_finite_inputs
import proofs.«144199_j63694364999794_1_alg».proof.Proof.KernelValue
import proofs.«144199_j63694364999794_1_alg».proof.Proof.RefValue
import Idealize.ShloMosaic.Adequacy
import Idealize.ShloMosaic.Init

noncomputable section

namespace Cert.Proof

open Idealize.ShloMosaic Idealize.SL.Sem

/-- The kernel program as printed runs to its end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to its end and leaves its arguments as they were: its run, the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the six arguments both programs end with the result buffer at the same function of the
    arguments: the way back applied to the feed-forward function of the dispatched tokens and the three weights. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩) (Cert.ReferenceIdeal.Hand.run m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
